-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S4x768 : Shape := ⟨2, ![4, 768]⟩
abbrev S4 : Shape := ⟨1, ![4]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S4x768 : S_.BroadcastsInDim S4x768 (![] : Fin 0 → Fin S4x768.rank)
  reducesTo_S4x768_S_d0_1 : S4x768.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S32x1024x768 .f32) (main_arg1 : FVec F S4x768 .f32) (main_arg2 : FVec F S4 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S4x768 .f32 := Host.absf main_arg1
  let main_cst_0 : FVec F S_ .f32 := constant S_ .f32 0x7F800000#32
  let main_v5 : FVec F S4x768 .f32 := broadcastInDim S4x768 ![] bcast_S_S4x768 main_cst_0
  let main_v6 : IVec S4x768 1 := cmpf .olt main_v4 main_v5
  let main_c_1 : IVec S_ 1 := constantI S_ 1 1#1
  let main_v7 : IVec S_ 1 := (fun x v => Host.reduce IntOp.andi x v reducesTo_S4x768_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S32x1024x768 : Shape := ⟨3, ![32, 1024, 768]⟩
abbrev S4x768 : Shape := ⟨2, ![4, 768]⟩
abbrev S4 : Shape := ⟨1, ![4]⟩
abbrev S32x32 : Shape := ⟨2, ![32, 32]⟩
abbrev S1x1024x768 : Shape := ⟨3, ![1, 1024, 768]⟩
abbrev S1024x768 : Shape := ⟨2, ![1024, 768]⟩
abbrev S32x32x768 : Shape := ⟨3, ![32, 32, 768]⟩
abbrev S768 : Shape := ⟨1, ![768]⟩
abbrev S1x768 : Shape := ⟨2, ![1, 768]⟩
abbrev S1 : Shape := ⟨1, ![1]⟩
abbrev S1x1 : Shape := ⟨2, ![1, 1]⟩
abbrev S1x1x1 : Shape := ⟨3, ![1, 1, 1]⟩
abbrev S1x32x32 : Shape := ⟨3, ![1, 32, 32]⟩
abbrev S32x32x32 : Shape := ⟨3, ![32, 32, 32]⟩
abbrev S32x24576 : Shape := ⟨2, ![32, 24576]⟩

abbrev nBuf : Space → Nat
  | .hbm => 5
  | .vmem => 7
  | .smem => 0
  | _ => 0

abbrev bufTy : (tb : Table) → Fin (tcTables nBuf tb) → BufTy
  | .hbm, ⟨0, _⟩ => ⟨S32x1024x768, .f32⟩
  | .hbm, ⟨1, _⟩ => ⟨S4x768, .f32⟩
  | .hbm, ⟨2, _⟩ => ⟨S4, .f32⟩
  | .hbm, ⟨3, _⟩ => ⟨S32x32, .f32⟩
  | .hbm, ⟨4, _⟩ => ⟨S32x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S4x768, .f32⟩
  | .local _ .vmem, ⟨3, _⟩ => ⟨S4, .f32⟩
  | .local _ .vmem, ⟨4, _⟩ => ⟨S32x32, .f32⟩
  | .local _ .vmem, ⟨5, _⟩ => ⟨S1x1024x768, .f32⟩
  | .local _ .vmem, ⟨6, _⟩ => ⟨S1x1024x768, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S32x32x768 : S1024x768.ShapeCasts S32x32x768
  reduces_S1024x768_S768 : S1024x768.Reduces [0] S768
  shapeCasts_S768_S1x768 : S768.ShapeCasts S1x768
  inb_S4x768_S4x768_0_0 : ∀ a, (![0, 0] : Fin 2 → Nat) a + S4x768.size a ≤ S4x768.size a
  h_S4x768 : 0 < S4x768.numel
  inb_S4_S4_0 : ∀ a, (![0] : Fin 1 → Nat) a + S4.size a ≤ S4.size a
  h_S4 : 0 < S4.numel
  slices_S4x768_o0_0_S1x768 : S4x768.Slices ![0, 0] S1x768
  reduces_S1x768_S1 : S1x768.Reduces [1] S1
  shapeCasts_S1_S1x1 : S1.ShapeCasts S1x1
  slices_S4_o0_S1 : S4.Slices ![0] S1
  inpos_S1_p0 : ∀ a, (![0] : Fin 1 → Nat) a < S1.size a
  slices_S4x768_o1_0_S1x768 : S4x768.Slices ![1, 0] S1x768
  slices_S4_o1_S1 : S4.Slices ![1] S1
  slices_S4x768_o2_0_S1x768 : S4x768.Slices ![2, 0] S1x768
  slices_S4_o2_S1 : S4.Slices ![2] S1
  slices_S4x768_o3_0_S1x768 : S4x768.Slices ![3, 0] S1x768
  slices_S4_o3_S1 : S4.Slices ![3] S1
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  shapeCasts_S1x1_S1x1x1 : S1x1.ShapeCasts S1x1x1
  broadcasts_S1x1x1_S32x32x768 : S1x1x1.Broadcasts S32x32x768
  transposes_S32x32x768_p1_0_2_S32x32x768 : S32x32x768.Transposes [1, 0, 2] S32x32x768
  shapeCasts_S32x32_S1x32x32 : S32x32.ShapeCasts S1x32x32
  shapeCasts_S1x32x32_S1x32x32 : S1x32x32.ShapeCasts S1x32x32
  broadcasts_S1x32x32_S32x32x32 : S1x32x32.Broadcasts S32x32x32
  shapeCasts_S32x32x768_S32x24576 : S32x32x768.ShapeCasts S32x24576
  shapeCasts_S32x24576_S32x32x768 : S32x24576.ShapeCasts S32x32x768
  shapeCasts_S32x32x768_S1024x768 : S32x32x768.ShapeCasts S1024x768
  shapeCasts_S1024x768_S1x1024x768 : S1024x768.ShapeCasts S1x1024x768
  dot_S32x32x32_S32x32x768_S32x32x768_2_1_1_2_0_0_wf : DotDims.WF S32x32x32 S32x32x768 S32x32x768 [2] [1] [1] [2] [0] [0]
  dot_S32x32_S32x24576_S32x24576_1_0_0_1_n_n_wf : DotDims.WF S32x32 S32x24576 S32x24576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .f32 = 32 ∨ (Rect.block (s := S32x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x768.size a ≤ S4x768.size a
  hwx0_1 : ∀ i : grid0.Coords, EltTy.bits .f32 = 32 ∨ (Rect.block (s := S4x768) S4x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x768.size a ≤ S32x1024x768.size a
  hwx0_4 : ∀ i : grid0.Coords, EltTy.bits .f32 = 32 ∨ (Rect.block (s := S32x1024x768) S1x1024x768.size (cc0_transform_4 i) (hinb0_4 i)).WholeWords (EltTy.packing .f32)

variable [Facts₀]

def dot_S32x32x32_S32x32x768_S32x32x768_2_1_1_2_0_0 : DotDims S32x32x32 S32x32x768 S32x32x768 where
  lhsContracting := [2]
  rhsContracting := [1]
  lhsNonContracting := [1]
  rhsNonContracting := [2]
  lhsBatch := [0]
  rhsBatch := [0]
  wf := dot_S32x32x32_S32x32x768_S32x32x768_2_1_1_2_0_0_wf
def dot_S32x32_S32x24576_S32x24576_1_0_0_1_n_n : DotDims S32x32 S32x24576 S32x24576 where
  lhsContracting := [1]
  rhsContracting := [0]
  lhsNonContracting := [0]
  rhsNonContracting := [1]
  lhsBatch := []
  rhsBatch := []
  wf := dot_S32x32_S32x24576_S32x24576_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S4x768 : Shape := ⟨2, ![4, 768]⟩
abbrev S4 : Shape := ⟨1, ![4]⟩
abbrev S32x768x1024 : Shape := ⟨3, ![32, 768, 1024]⟩
abbrev S32x768x32x32 : Shape := ⟨4, ![32, 768, 32, 32]⟩
abbrev S_ : Shape := ⟨0, ![]⟩
abbrev S32x768 : Shape := ⟨2, ![32, 768]⟩
abbrev S768x4 : Shape := ⟨2, ![768, 4]⟩
abbrev S32x4 : Shape := ⟨2, ![32, 4]⟩
abbrev S1x4 : Shape := ⟨2, ![1, 4]⟩
abbrev S32x4x1x1 : Shape := ⟨4, ![32, 4, 1, 1]⟩
abbrev S32x1x1x1 : Shape := ⟨4, ![32, 1, 1, 1]⟩
abbrev S32x1x1 : Shape := ⟨3, ![32, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S4x768, .f32⟩
  | .hbm, ⟨2, _⟩ => ⟨S4, .f32⟩
  | .hbm, ⟨3, _⟩ => ⟨S32x768x1024, .f32⟩
  | .hbm, ⟨4, _⟩ => ⟨S32x768x32x32, .f32⟩
  | .hbm, ⟨5, _⟩ => ⟨S_, .f32⟩
  | .hbm, ⟨6, _⟩ => ⟨S32x768, .f32⟩
  | .hbm, ⟨7, _⟩ => ⟨S_, .f32⟩
  | .hbm, ⟨8, _⟩ => ⟨S32x768, .f32⟩
  | .hbm, ⟨9, _⟩ => ⟨S32x768, .f32⟩
  | .hbm, ⟨10, _⟩ => ⟨S768x4, .f32⟩
  | .hbm, ⟨11, _⟩ => ⟨S32x4, .f32⟩
  | .hbm, ⟨12, _⟩ => ⟨S1x4, .f32⟩
  | .hbm, ⟨13, _⟩ => ⟨S32x4, .f32⟩
  | .hbm, ⟨14, _⟩ => ⟨S32x4, .f32⟩
  | .hbm, ⟨15, _⟩ => ⟨S32x4x1x1, .f32⟩
  | .hbm, ⟨16, _⟩ => ⟨S32x768x1024, .f32⟩
  | .hbm, ⟨17, _⟩ => ⟨S32x768x32x32, .f32⟩
  | .hbm, ⟨18, _⟩ => ⟨S32x768x1024, .f32⟩
  | .hbm, ⟨19, _⟩ => ⟨S32x768x1024, .f32⟩
  | .hbm, ⟨20, _⟩ => ⟨S32x768x1024, .f32⟩
  | .hbm, ⟨21, _⟩ => ⟨S32x1x1x1, .f32⟩
  | .hbm, ⟨22, _⟩ => ⟨S32x1x1, .f32⟩
  | .hbm, ⟨23, _⟩ => ⟨S32x768x1024, .f32⟩
  | .hbm, ⟨24, _⟩ => ⟨S32x768x1024, .f32⟩
  | .hbm, ⟨25, _⟩ => ⟨S32x1x1x1, .f32⟩
  | .hbm, ⟨26, _⟩ => ⟨S32x1x1, .f32⟩
  | .hbm, ⟨27, _⟩ => ⟨S32x768x1024, .f32⟩
  | .hbm, ⟨28, _⟩ => ⟨S32x768x1024, .f32⟩
  | .hbm, ⟨29, _⟩ => ⟨S32x768x1024, .f32⟩
  | .hbm, ⟨30, _⟩ => ⟨S32x1x1x1, .f32⟩
  | .hbm, ⟨31, _⟩ => ⟨S32x1x1, .f32⟩
  | .hbm, ⟨32, _⟩ => ⟨S32x768x1024, .f32⟩
  | .hbm, ⟨33, _⟩ => ⟨S32x768x1024, .f32⟩
  | .hbm, ⟨34, _⟩ => ⟨S32x768x1024, .f32⟩
  | .hbm, ⟨35, _⟩ => ⟨S32x1x1x1, .f32⟩
  | .hbm, ⟨36, _⟩ => ⟨S32x1x1, .f32⟩
  | .hbm, ⟨37, _⟩ => ⟨S32x768x1024, .f32⟩
  | .hbm, ⟨38, _⟩ => ⟨S32x768x1024, .f32⟩
  | .hbm, ⟨39, _⟩ => ⟨S32x768x1024, .f32⟩
  | .hbm, ⟨40, _⟩ => ⟨S32x1024x768, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]

class Facts₀ : Prop where
  transposes_S32x1024x768_S32x768x1024_0_2_1 : S32x1024x768.Transposes [0, 2, 1] S32x768x1024
  shapeCasts_S32x768x1024_S32x768x32x32 : S32x768x1024.ShapeCasts S32x768x32x32
  reducesTo_S32x768x32x32_S32x768_d2_3 : S32x768x32x32.ReducesTo [2, 3] S32x768
  h_S_ : 0 < S_.numel
  bcast_S_S32x768 : S_.BroadcastsInDim S32x768 (![] : Fin 0 → Fin S32x768.rank)
  transposes_S4x768_S768x4_1_0 : S4x768.Transposes [1, 0] S768x4
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  bcast_S32x4_S32x4x1x1_0_1 : S32x4.BroadcastsInDim S32x4x1x1 (![0, 1] : Fin 2 → Fin S32x4x1x1.rank)
  shapeCasts_S32x768x32x32_S32x768x1024 : S32x768x32x32.ShapeCasts S32x768x1024
  transposes_S32x768x32x32_S32x768x32x32_0_1_3_2 : S32x768x32x32.Transposes [0, 1, 3, 2] S32x768x32x32
  slices_S32x4x1x1_S32x1x1x1_0_0_0_0 : S32x4x1x1.Slices ![0, 0, 0, 0] S32x1x1x1
  shapeCasts_S32x1x1x1_S32x1x1 : S32x1x1x1.ShapeCasts S32x1x1
  bcast_S32x1x1_S32x768x1024_0_1_2 : S32x1x1.BroadcastsInDim S32x768x1024 (![0, 1, 2] : Fin 3 → Fin S32x768x1024.rank)
  slices_S32x4x1x1_S32x1x1x1_0_1_0_0 : S32x4x1x1.Slices ![0, 1, 0, 0] S32x1x1x1
  slices_S32x4x1x1_S32x1x1x1_0_2_0_0 : S32x4x1x1.Slices ![0, 2, 0, 0] S32x1x1x1
  slices_S32x4x1x1_S32x1x1x1_0_3_0_0 : S32x4x1x1.Slices ![0, 3, 0, 0] S32x1x1x1
  transposes_S32x768x1024_S32x1024x768_0_2_1 : S32x768x1024.Transposes [0, 2, 1] S32x1024x768
  dot_S32x768_S768x4_S32x4_1_0_0_1_n_n_wf : DotDims.WF S32x768 S768x4 S32x4 [1] [0] [0] [1] [] []

variable [Facts₀]

def dot_S32x768_S768x4_S32x4_1_0_0_1_n_n : DotDims S32x768 S768x4 S32x4 where
  lhsContracting := [1]
  rhsContracting := [0]
  lhsNonContracting := [0]
  rhsNonContracting := [1]
  lhsBatch := []
  rhsBatch := []
  wf := dot_S32x768_S768x4_S32x4_1_0_0_1_n_n_wf

class Facts : Prop extends Facts₀ where

variable [Facts]
-- ==== Proof.Spec.lean ====
/-
  The function both programs compute, stated once over plain arrays of extended reals.

  An image of `1024 = 32 × 32` positions and `768` channels is scanned in four orders: row-major (`l`), column-major
  (`swapPos l`: the position with row and column exchanged), and each of the two backwards (`revPos l = 1023 - l`,
  `revSwapPos l = 1023 - swapPos l`). The four scans are mixed with four GATES per image: gate `i` is the inner product of
  the image's channel means (the sum over the 1024 positions divided by the literal `1024.0`) with row `i` of `W`, plus
  `bias i`. `merged` is that mix, index by index. The batch extent `B` is a parameter so that the same function speaks
  of one image (a block, `B = 1`) and of the whole array (`B = 32`); `merged_congr` moves between the two.
-/
import Idealize.ShloMosaic.PureOps.Ideal
import Idealize.ShloMosaic.Lib.ValueIdx

noncomputable section

namespace Cert.ScanMerge

open Idealize.ShloMosaic Idealize.ShloMosaic.ValueIdx

/-- Position `32·p + q` read with row and column exchanged: `32·q + p`. -/
def swapPos (l : Fin 1024) : Fin 1024 := ⟨(l.val % 32) * 32 + l.val / 32, by have := l.isLt; omega⟩

/-- The position counted from the end. -/
def revPos (l : Fin 1024) : Fin 1024 := ⟨1023 - l.val, by omega⟩

/-- The exchanged position counted from the end. -/
def revSwapPos (l : Fin 1024) : Fin 1024 := ⟨1023 - ((l.val % 32) * 32 + l.val / 32), by omega⟩

theorem swapPos_val (l : Fin 1024) : (swapPos l).val = (l.val % 32) * 32 + l.val / 32 := rfl
theorem revPos_val (l : Fin 1024) : (revPos l).val = 1023 - l.val := rfl
theorem revSwapPos_val (l : Fin 1024) : (revSwapPos l).val = 1023 - ((l.val % 32) * 32 + l.val / 32) := rfl

variable {B : Nat}

/-- Channel `c`'s mean over image `b`: the sum over the positions, divided by the literal `1024.0`. -/
def pooled (x : (⟨3, ![B, 1024, 768]⟩ : Shape).Idx → EReal) (b : Fin B) (c : Fin 768) : EReal :=
  Ideal.div (∑ n : Fin 1024, x (ix3 b n c)) (Ideal.ofBits .f32 0x44800000#32)

/-- Gate `i` of image `b`: the channel means against row `i` of `W`, plus the bias. -/
def gate (x : (⟨3, ![B, 1024, 768]⟩ : Shape).Idx → EReal) (W : (⟨2, ![4, 768]⟩ : Shape).Idx → EReal)
    (bias : (⟨1, ![4]⟩ : Shape).Idx → EReal) (b : Fin B) (i : Fin 4) : EReal :=
  (∑ c : Fin 768, pooled x b c * W (ix2 i c)) + bias (ix1 i)

/-- The gated mix of the four scans at image `b`, position `l`, channel `c`. -/
def mergedAt (x : (⟨3, ![B, 1024, 768]⟩ : Shape).Idx → EReal) (W : (⟨2, ![4, 768]⟩ : Shape).Idx → EReal)
    (bias : (⟨1, ![4]⟩ : Shape).Idx → EReal) (b : Fin B) (l : Fin 1024) (c : Fin 768) : EReal :=
  ((gate x W bias b 0 * x (ix3 b l c) + gate x W bias b 1 * x (ix3 b (swapPos l) c))
      + gate x W bias b 2 * x (ix3 b (revPos l) c))
    + gate x W bias b 3 * x (ix3 b (revSwapPos l) c)

/-- The whole result array. -/
def merged (x : (⟨3, ![B, 1024, 768]⟩ : Shape).Idx → EReal) (W : (⟨2, ![4, 768]⟩ : Shape).Idx → EReal)
    (bias : (⟨1, ![4]⟩ : Shape).Idx → EReal) : (⟨3, ![B, 1024, 768]⟩ : Shape).Idx → EReal :=
  fun j => mergedAt x W bias (j 0) (j 1) (j 2)

theorem merged_ix3 (x : (⟨3, ![B, 1024, 768]⟩ : Shape).Idx → EReal) (W : (⟨2, ![4, 768]⟩ : Shape).Idx → EReal)
    (bias : (⟨1, ![4]⟩ : Shape).Idx → EReal) (b : Fin B) (l : Fin 1024) (c : Fin 768) :
    merged x W bias (ix3 b l c) = mergedAt x W bias b l c := rfl

/-- The mix at one image depends on that image's entries only: if image `b'` of `y` is image `b` of `x`, the two agree. -/
theorem mergedAt_congr {B' : Nat} (x : (⟨3, ![B, 1024, 768]⟩ : Shape).Idx → EReal) (y : (⟨3, ![B', 1024, 768]⟩ : Shape).Idx → EReal)
    (W : (⟨2, ![4, 768]⟩ : Shape).Idx → EReal) (bias : (⟨1, ![4]⟩ : Shape).Idx → EReal) (b : Fin B) (b' : Fin B')
    (h : ∀ (n : Fin 1024) (c : Fin 768), y (ix3 b' n c) = x (ix3 b n c)) (l : Fin 1024) (c : Fin 768) :
    mergedAt y W bias b' l c = mergedAt x W bias b l c := by
  have hp : ∀ c, pooled y b' c = pooled x b c := fun c => by
    unfold pooled; exact congrArg (fun s => Ideal.div s _) (Finset.sum_congr rfl fun n _ => h n c)
  have hg : ∀ i, gate y W bias b' i = gate x W bias b i := fun i => by
    unfold gate; exact congrArg (· + bias (ix1 i)) (Finset.sum_congr rfl fun c _ => by rw [hp c])
  unfold mergedAt
  rw [hg 0, hg 1, hg 2, hg 3, h l c, h (swapPos l) c, h (revPos l) c, h (revSwapPos l) c]

end Cert.ScanMerge

end
-- ==== Proof.BlockValue.lean ====
/-
  What one grid point stores. The body loads one image (1024 = 32 × 32 positions by 768 channels), the four weight rows, the
  bias and a 32 × 32 matrix; it forms the channel means, the four gates, the image with its two grid axes exchanged, and —
  by two products with the matrix — the image with both grid axes reversed. When the matrix is the REVERSAL permutation (one
  on the anti-diagonal, zero elsewhere) a product with it only moves entries: `∑ k, [a + k = 31] · f k = f (31 - a)`, and
  because zero times anything is zero on the extended reals this asks nothing of the entries. The stored value is then the
  gated mix of the four scans of that image: `merged` at batch extent one.
-/
import proofs.«107193_j36206574305366_1_alg».proof.Proof.Gen.KernelIdeal.Skeleton
import proofs.«107193_j36206574305366_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ScanMerge.Kernel

open Cert.KernelIdeal Cert.KernelIdeal.Gen Idealize.ShloMosaic Idealize.ShloMosaic.ValueIdx Cert.ScanMerge

/-! ## The two products with the reversal matrix -/

theorem lhsB_0 (i : S32x32x768.Idx) (q : dot_S32x32x32_S32x32x768_S32x32x768_2_1_1_2_0_0.contr.Idx) :
    (dot_S32x32x32_S32x32x768_S32x32x768_2_1_1_2_0_0.lhsIdx i q 0).val = (i 0).val := by
  unfold DotDims.lhsIdx
  rw [dif_pos (show (0 : Fin S32x32x32.rank) ∈ dot_S32x32x32_S32x32x768_S32x32x768_2_1_1_2_0_0.lhsBatch by decide)]
  rfl
theorem lhsB_1 (i : S32x32x768.Idx) (q : dot_S32x32x32_S32x32x768_S32x32x768_2_1_1_2_0_0.contr.Idx) :
    (dot_S32x32x32_S32x32x768_S32x32x768_2_1_1_2_0_0.lhsIdx i q 1).val = (i 1).val := by
  unfold DotDims.lhsIdx
  rw [dif_neg (show ¬(1 : Fin S32x32x32.rank) ∈ dot_S32x32x32_S32x32x768_S32x32x768_2_1_1_2_0_0.lhsBatch by decide),
    dif_pos (show (1 : Fin S32x32x32.rank) ∈ dot_S32x32x32_S32x32x768_S32x32x768_2_1_1_2_0_0.lhsNonContracting by decide)]
  rfl
theorem lhsB_2 (i : S32x32x768.Idx) (q : dot_S32x32x32_S32x32x768_S32x32x768_2_1_1_2_0_0.contr.Idx) :
    (dot_S32x32x32_S32x32x768_S32x32x768_2_1_1_2_0_0.lhsIdx i q 2).val = (q ⟨0, by decide⟩).val :=
  dot_S32x32x32_S32x32x768_S32x32x768_2_1_1_2_0_0.lhsIdx_val_of_single rfl i q
theorem rhsB_0 (i : S32x32x768.Idx) (q : dot_S32x32x32_S32x32x768_S32x32x768_2_1_1_2_0_0.contr.Idx) :
    (dot_S32x32x32_S32x32x768_S32x32x768_2_1_1_2_0_0.rhsIdx i q 0).val = (i 0).val := by
  unfold DotDims.rhsIdx
  rw [dif_pos (show (0 : Fin S32x32x768.rank) ∈ dot_S32x32x32_S32x32x768_S32x32x768_2_1_1_2_0_0.rhsBatch by decide)]
  rfl
theorem rhsB_1 (i : S32x32x768.Idx) (q : dot_S32x32x32_S32x32x768_S32x32x768_2_1_1_2_0_0.contr.Idx) :
    (dot_S32x32x32_S32x32x768_S32x32x768_2_1_1_2_0_0.rhsIdx i q 1).val = (q ⟨0, by decide⟩).val :=
  dot_S32x32x32_S32x32x768_S32x32x768_2_1_1_2_0_0.rhsIdx_val_of_single rfl i q
theorem rhsB_2 (i : S32x32x768.Idx) (q : dot_S32x32x32_S32x32x768_S32x32x768_2_1_1_2_0_0.contr.Idx) :
    (dot_S32x32x32_S32x32x768_S32x32x768_2_1_1_2_0_0.rhsIdx i q 2).val = (i 2).val := by
  unfold DotDims.rhsIdx
  rw [dif_neg (show ¬(2 : Fin S32x32x768.rank) ∈ dot_S32x32x32_S32x32x768_S32x32x768_2_1_1_2_0_0.rhsBatch by decide),
    dif_pos (show (2 : Fin S32x32x768.rank) ∈ dot_S32x32x32_S32x32x768_S32x32x768_2_1_1_2_0_0.rhsNonContracting by decide)]
  rfl

/-- A sum against a row of the reversal matrix picks the mirrored entry: `∑ k, [a + k = 31] · f k = f (31 - a)`;
    zero times anything is zero on the extended reals, so nothing is asked of `f`. -/
theorem sum_rev_row (a : Fin 32) (f : Fin 32 → EReal) :
    ∑ k : Fin 32, (if a.val + k.val = 31 then (1 : EReal) else 0) * f k = f ⟨31 - a.val, by omega⟩ := by
  rw [Finset.sum_eq_single (⟨31 - a.val, by omega⟩ : Fin 32)]
  · rw [if_pos (by show a.val + (31 - a.val) = 31; omega), one_mul]
  · intro k _ hk
    rw [if_neg (fun h => hk (Fin.ext (by show k.val = 31 - a.val; omega))), zero_mul]
  · intro h; exact absurd (Finset.mem_univ _) h

/-- The batched product `∑ q, R[p, r, q] · X[p, q, c]` with every `R[p]` the reversal matrix reverses `X`'s middle axis. -/
theorem matmul_rev_mid (R : FVec Ideal S32x32x32 .bf16) (X : FVec Ideal S32x32x768 .bf16)
    (hR : ∀ p a b : Fin 32, R (ix3 p a b) = if a.val + b.val = 31 then (1 : EReal) else 0)
    (p r : Fin 32) (c : Fin 768) :
    matmul dot_S32x32x32_S32x32x768_S32x32x768_2_1_1_2_0_0 none R X (constant (F := Ideal) S32x32x768 .f32 0x00000000#32) (ix3 p r c)
      = X (ix3 p ⟨31 - r.val, by omega⟩ c) := by
  simp only [matmul]
  rw [Ideal.matmul_constant_zero_apply,
    ← Equiv.sum_comp (contrEquiv1 dot_S32x32x32_S32x32x768_S32x32x768_2_1_1_2_0_0 32 rfl rfl).symm]
  refine (Finset.sum_congr rfl fun k _ => ?_).trans (sum_rev_row r fun k => X (ix3 p k c))
  have hk := contrEquiv1_symm_val dot_S32x32x32_S32x32x768_S32x32x768_2_1_1_2_0_0 32 rfl rfl k
  have el : dot_S32x32x32_S32x32x768_S32x32x768_2_1_1_2_0_0.lhsIdx (ix3 p r c)
      ((contrEquiv1 dot_S32x32x32_S32x32x768_S32x32x768_2_1_1_2_0_0 32 rfl rfl).symm k) = ix3 p r k := funext fun a => Fin.ext (by
    match a with
    | ⟨0, _⟩ => exact lhsB_0 _ _
    | ⟨1, _⟩ => exact lhsB_1 _ _
    | ⟨2, _⟩ => exact (lhsB_2 _ _).trans hk)
  have er : dot_S32x32x32_S32x32x768_S32x32x768_2_1_1_2_0_0.rhsIdx (ix3 p r c)
      ((contrEquiv1 dot_S32x32x32_S32x32x768_S32x32x768_2_1_1_2_0_0 32 rfl rfl).symm k) = ix3 p k c := funext fun a => Fin.ext (by
    match a with
    | ⟨0, _⟩ => exact rhsB_0 _ _
    | ⟨1, _⟩ => exact (rhsB_1 _ _).trans hk
    | ⟨2, _⟩ => exact rhsB_2 _ _)
  rw [el, er, hR]

theorem lhsP_0 (i : S32x24576.Idx) (q : dot_S32x32_S32x24576_S32x24576_1_0_0_1_n_n.contr.Idx) :
    (dot_S32x32_S32x24576_S32x24576_1_0_0_1_n_n.lhsIdx i q 0).val = (i 0).val := by
  unfold DotDims.lhsIdx
  rw [dif_neg (show ¬(0 : Fin S32x32.rank) ∈ dot_S32x32_S32x24576_S32x24576_1_0_0_1_n_n.lhsBatch by decide),
    dif_pos (show (0 : Fin S32x32.rank) ∈ dot_S32x32_S32x24576_S32x24576_1_0_0_1_n_n.lhsNonContracting by decide)]
  rfl
theorem lhsP_1 (i : S32x24576.Idx) (q : dot_S32x32_S32x24576_S32x24576_1_0_0_1_n_n.contr.Idx) :
    (dot_S32x32_S32x24576_S32x24576_1_0_0_1_n_n.lhsIdx i q 1).val = (q ⟨0, by decide⟩).val :=
  dot_S32x32_S32x24576_S32x24576_1_0_0_1_n_n.lhsIdx_val_of_single rfl i q
theorem rhsP_0 (i : S32x24576.Idx) (q : dot_S32x32_S32x24576_S32x24576_1_0_0_1_n_n.contr.Idx) :
    (dot_S32x32_S32x24576_S32x24576_1_0_0_1_n_n.rhsIdx i q 0).val = (q ⟨0, by decide⟩).val :=
  dot_S32x32_S32x24576_S32x24576_1_0_0_1_n_n.rhsIdx_val_of_single rfl i q
theorem rhsP_1 (i : S32x24576.Idx) (q : dot_S32x32_S32x24576_S32x24576_1_0_0_1_n_n.contr.Idx) :
    (dot_S32x32_S32x24576_S32x24576_1_0_0_1_n_n.rhsIdx i q 1).val = (i 1).val := by
  unfold DotDims.rhsIdx
  rw [dif_neg (show ¬(1 : Fin S32x24576.rank) ∈ dot_S32x32_S32x24576_S32x24576_1_0_0_1_n_n.rhsBatch by decide),
    dif_pos (show (1 : Fin S32x24576.rank) ∈ dot_S32x32_S32x24576_S32x24576_1_0_0_1_n_n.rhsNonContracting by decide)]
  rfl

/-- The plain product `∑ p, R[a, p] · Y[p, j]` with `R` the reversal matrix reverses `Y`'s rows. -/
theorem matmul_rev_rows (R : FVec Ideal S32x32 .bf16) (Y : FVec Ideal S32x24576 .bf16)
    (hR : ∀ a b : Fin 32, R (ix2 a b) = if a.val + b.val = 31 then (1 : EReal) else 0)
    (a : Fin 32) (j : Fin 24576) :
    matmul dot_S32x32_S32x24576_S32x24576_1_0_0_1_n_n none R Y (constant (F := Ideal) S32x24576 .f32 0x00000000#32) (ix2 a j)
      = Y (ix2 ⟨31 - a.val, by omega⟩ j) := by
  simp only [matmul]
  rw [Ideal.matmul_constant_zero_apply,
    ← Equiv.sum_comp (contrEquiv1 dot_S32x32_S32x24576_S32x24576_1_0_0_1_n_n 32 rfl rfl).symm]
  refine (Finset.sum_congr rfl fun k _ => ?_).trans (sum_rev_row a fun k => Y (ix2 k j))
  have hk := contrEquiv1_symm_val dot_S32x32_S32x24576_S32x24576_1_0_0_1_n_n 32 rfl rfl k
  have el : dot_S32x32_S32x24576_S32x24576_1_0_0_1_n_n.lhsIdx (ix2 a j)
      ((contrEquiv1 dot_S32x32_S32x24576_S32x24576_1_0_0_1_n_n 32 rfl rfl).symm k) = ix2 a k := funext fun b => Fin.ext (by
    match b with
    | ⟨0, _⟩ => exact lhsP_0 _ _
    | ⟨1, _⟩ => exact (lhsP_1 _ _).trans hk)
  have er : dot_S32x32_S32x24576_S32x24576_1_0_0_1_n_n.rhsIdx (ix2 a j)
      ((contrEquiv1 dot_S32x32_S32x24576_S32x24576_1_0_0_1_n_n 32 rfl rfl).symm k) = ix2 k j := funext fun b => Fin.ext (by
    match b with
    | ⟨0, _⟩ => exact (rhsP_0 _ _).trans hk
    | ⟨1, _⟩ => exact rhsP_1 _ _)
  rw [el, er, hR]

/-! ## The image block, the channel means and the gates -/

/-- The block viewed as a `32 × 32` grid of positions: entry `(p, q, c)` is position `32·p + q`. -/
theorem image_apply (v0 : Vec Ideal S1x1024x768 .f32) (p q : Fin 32) (c : Fin 768) :
    k0_pay3 (F := Ideal) v0 (ix3 p q c) = v0 (ix3 (0 : Fin 1) (⟨32 * p.val + q.val, by omega⟩ : Fin 1024) c) := by
  unfold k0_pay3 k0_pay2
  refine (shapeCast_apply _ shapeCasts_S1024x768_S32x32x768 (ix3 p q c) (ix2 (⟨32 * p.val + q.val, by omega⟩ : Fin 1024) c) (by
    rw [Shape.rowMajor_val_two, Shape.rowMajor_val_three]
    show (32 * p.val + q.val) * 768 + c.val = (p.val * 32 + q.val) * 768 + c.val
    omega)).trans ?_
  exact shapeCast_1ab_ab_apply v0 shapeCasts_S1x1024x768_S1024x768 _ c

/-- A sum over the positions of a `1024 × 768` array, read at channel `c`. -/
theorem column_sum (v : FVec Ideal S1024x768 .f32) (h : S1024x768.Reduces [0] S768) (hφ : FKind.Formats .f32)
    (hacc : (0x00000000#32 : BitVec 32) = FKind.add.neutral .f32 hφ) (c : Fin 768) :
    multiReduction .add [0] S768 v 0x00000000#32 h hφ hacc (ix1 c) = ∑ n : Fin 1024, v (ix2 n c) := by
  refine (Ideal.multiReduction_add_single v _ h hφ hacc (ix1 c)).trans ?_
  exact Finset.sum_congr rfl fun n _ => congrArg v (funext fun a => Fin.ext (by
    match a with
    | ⟨0, _⟩ => rfl
    | ⟨1, _⟩ => rfl))

/-- A sum over the channels of a `1 × 768` row. -/
theorem lane_sum (v : FVec Ideal S1x768 .f32) (h : S1x768.Reduces [1] S1) (hφ : FKind.Formats .f32)
    (hacc : (0x00000000#32 : BitVec 32) = FKind.add.neutral .f32 hφ) :
    multiReduction .add [1] S1 v 0x00000000#32 h hφ hacc (ix1 (0 : Fin 1)) = ∑ k : Fin 768, v (ix2 (0 : Fin 1) k) := by
  refine (Ideal.multiReduction_add_single v _ h hφ hacc (ix1 (0 : Fin 1))).trans ?_
  exact Finset.sum_congr rfl fun n _ => congrArg v (funext fun a => Fin.ext (by
    match a with
    | ⟨0, _⟩ => rfl
    | ⟨1, _⟩ => rfl))

/-- The body's channel means are the specification's. -/
theorem mean_apply (v0 : Vec Ideal S1x1024x768 .f32) (c : Fin 768) :
    k0_pay4 (F := Ideal) v0 (ix2 (0 : Fin 1) c) = pooled (B := 1) v0 0 c := by
  unfold k0_pay4 pooled
  show Ideal.div (shapeCast S1x768 _ shapeCasts_S768_S1x768 (ix2 (0 : Fin 1) c)) (Ideal.ofBits .f32 0x44800000#32) = _
  refine congrArg (fun s => Ideal.div s (Ideal.ofBits .f32 0x44800000#32)) ?_
  refine (shapeCast_a_1a_apply _ shapeCasts_S768_S1x768 (0 : Fin 1) c).trans ?_
  refine (column_sum _ _ _ _ c).trans ?_
  exact Finset.sum_congr rfl fun n _ => shapeCast_1ab_ab_apply v0 shapeCasts_S1x1024x768_S1024x768 n c

/-- One gate as the body computes it — the means times row `o` of the weights, summed over the channels, plus entry `o` of
    the bias — is the specification's gate `o`. -/
theorem gate_row (o : Nat) (ho : o < 4) (v0 : Vec Ideal S1x1024x768 .f32) (v7 : Vec Ideal S4x768 .f32) (v8 : Vec Ideal S4 .f32)
    (hs : S4x768.Slices ![o, 0] S1x768) (hs' : S4.Slices ![o] S1) (hred : S1x768.Reduces [1] S1) (hφ : FKind.Formats .f32)
    (hacc : (0x00000000#32 : BitVec 32) = FKind.add.neutral .f32 hφ) (hsc : S1.ShapeCasts S1x1)
    (hin : ∀ a, (![0] : Fin S1.rank → Nat) a < S1.size a) :
    addf (shapeCast S1x1 (multiReduction .add [1] S1 (mulf (k0_pay4 (F := Ideal) v0) (extractStridedSlice S1x768 ![o, 0] v7 hs))
          0x00000000#32 hred hφ hacc) hsc)
        (broadcast S1x1 (extractAt ![0] (extractStridedSlice S1 ![o] v8 hs') hin)) (ix2 (0 : Fin 1) (0 : Fin 1))
      = gate (B := 1) v0 v7 v8 0 ⟨o, ho⟩ := by
  unfold gate
  refine congrArg₂ (· + ·) ?_ ?_
  · refine (shapeCast_apply _ hsc (ix2 (0 : Fin 1) (0 : Fin 1)) (ix1 (0 : Fin 1)) (by
      rw [Shape.rowMajor_val_one, Shape.rowMajor_val_two]; rfl)).trans ?_
    refine (lane_sum _ hred hφ hacc).trans ?_
    refine Finset.sum_congr rfl fun k _ => ?_
    show k0_pay4 (F := Ideal) v0 (ix2 (0 : Fin 1) k) * extractStridedSlice S1x768 ![o, 0] v7 hs (ix2 (0 : Fin 1) k) = _
    rw [mean_apply]
    refine congrArg (pooled (B := 1) v0 0 k * ·) ?_
    exact extractStridedSlice_apply ![o, 0] v7 hs (ix2 (0 : Fin 1) k) (ix2 (⟨o, ho⟩ : Fin 4) k) (fun a => by
      match a with
      | ⟨0, _⟩ => show o = o + 0; omega
      | ⟨1, _⟩ => show k.val = 0 + k.val; omega)
  · show extractStridedSlice S1 ![o] v8 hs' (fun a => ⟨(![0] : Fin S1.rank → Nat) a, hin a⟩) = _
    exact extractStridedSlice_apply ![o] v8 hs' (fun a => ⟨(![0] : Fin S1.rank → Nat) a, hin a⟩) (ix1 (⟨o, ho⟩ : Fin 4)) (fun a => by
      match a with
      | ⟨0, _⟩ => show o = o + 0; omega)

theorem gate1_apply (v0 : Vec Ideal S1x1024x768 .f32) (v7 : Vec Ideal S4x768 .f32) (v8 : Vec Ideal S4 .f32) :
    k0_pay5 (F := Ideal) v0 v7 v8 (ix2 (0 : Fin 1) (0 : Fin 1)) = gate (B := 1) v0 v7 v8 0 1 := by
  unfold k0_pay5; exact gate_row 1 (by decide) v0 v7 v8 _ _ _ _ _ _ _
theorem gate2_apply (v0 : Vec Ideal S1x1024x768 .f32) (v7 : Vec Ideal S4x768 .f32) (v8 : Vec Ideal S4 .f32) :
    k0_pay6 (F := Ideal) v0 v7 v8 (ix2 (0 : Fin 1) (0 : Fin 1)) = gate (B := 1) v0 v7 v8 0 2 := by
  unfold k0_pay6; exact gate_row 2 (by decide) v0 v7 v8 _ _ _ _ _ _ _
theorem gate3_apply (v0 : Vec Ideal S1x1024x768 .f32) (v7 : Vec Ideal S4x768 .f32) (v8 : Vec Ideal S4 .f32) :
    k0_pay7 (F := Ideal) v0 v7 v8 (ix2 (0 : Fin 1) (0 : Fin 1)) = gate (B := 1) v0 v7 v8 0 3 := by
  unfold k0_pay7; exact gate_row 3 (by decide) v0 v7 v8 _ _ _ _ _ _ _

/-- A `1 × 1` value spread over the whole `32 × 32 × 768` block reads as that value everywhere. -/
theorem spread_apply (g : FVec Ideal S1x1 .f32) (h1 : S1x1.ShapeCasts S1x1x1) (h2 : S1x1x1.Broadcasts S32x32x768)
    (p q : Fin 32) (c : Fin 768) :
    broadcastTo S32x32x768 (shapeCast S1x1x1 g h1) h2 (ix3 p q c) = g (ix2 (0 : Fin 1) (0 : Fin 1)) := by
  refine (broadcastTo_apply _ h2 (ix3 p q c) (ix3 (0 : Fin 1) (0 : Fin 1) (0 : Fin 1)) (fun a => by
    match a with
    | ⟨0, _⟩ => rfl
    | ⟨1, _⟩ => rfl
    | ⟨2, _⟩ => rfl)).trans ?_
  exact shapeCast_apply g h1 _ _ (by rw [Shape.rowMajor_val_two, Shape.rowMajor_val_three]; rfl)

theorem gate0_apply (v0 : Vec Ideal S1x1024x768 .f32) (v7 : Vec Ideal S4x768 .f32) (v8 : Vec Ideal S4 .f32)
    (p q : Fin 32) (c : Fin 768) :
    k0_pay9 (F := Ideal) v0 v7 v8 (ix3 p q c) = gate (B := 1) v0 v7 v8 0 0 := by
  unfold k0_pay9
  refine (spread_apply _ _ _ p q c).trans ?_
  exact gate_row 0 (by decide) v0 v7 v8 _ _ _ _ _ _ _

/-! ## The image reversed along both grid axes, and the stored value -/

/-- The reversal matrix spread over a leading axis of 32 copies is the reversal matrix in every copy. -/
theorem spread_rev (r : FVec Ideal S32x32 .bf16) (h1 : S32x32.ShapeCasts S1x32x32) (h2 : S1x32x32.ShapeCasts S1x32x32)
    (h3 : S1x32x32.Broadcasts S32x32x32) (p a b : Fin 32) :
    broadcastTo S32x32x32 (shapeCast S1x32x32 (shapeCast S1x32x32 r h1) h2) h3 (ix3 p a b) = r (ix2 a b) := by
  refine (broadcastTo_apply _ h3 (ix3 p a b) (ix3 (0 : Fin 1) a b) (fun d => by
    match d with
    | ⟨0, _⟩ => rfl
    | ⟨1, _⟩ => rfl
    | ⟨2, _⟩ => rfl)).trans ?_
  rw [shapeCast_self]
  exact shapeCast_ab_1ab_apply r h1 (0 : Fin 1) a b

/-- Reversing the columns of every row by the batched product, flattening `(column, channel)`, reversing the rows by the
    plain product and unflattening gives the image with BOTH grid axes reversed. -/
theorem rev_both (v2 : FVec Ideal S32x32x768 .f32) (v42 : FVec Ideal S32x32 .bf16)
    (hR : ∀ a b : Fin 32, v42 (ix2 a b) = if a.val + b.val = 31 then (1 : EReal) else 0)
    (h1 : S32x32.ShapeCasts S1x32x32) (h2 : S1x32x32.ShapeCasts S1x32x32) (h3 : S1x32x32.Broadcasts S32x32x32)
    (hb : FTy.bf16.bits < FTy.f32.bits) (h4 : S32x32x768.ShapeCasts S32x24576) (h5 : S32x24576.ShapeCasts S32x32x768)
    (p q : Fin 32) (c : Fin 768) :
    shapeCast S32x32x768
        (matmul dot_S32x32_S32x24576_S32x24576_1_0_0_1_n_n none v42
          (shapeCast S32x24576
            (truncf .bf16
              (matmul dot_S32x32x32_S32x32x768_S32x32x768_2_1_1_2_0_0 none
                (broadcastTo S32x32x32 (shapeCast S1x32x32 (shapeCast S1x32x32 v42 h1) h2) h3) (truncf .bf16 v2 hb)
                (constant (F := Ideal) S32x32x768 .f32 0x00000000#32)) hb) h4)
          (constant (F := Ideal) S32x24576 .f32 0x00000000#32)) h5 (ix3 p q c)
      = v2 (ix3 (⟨31 - p.val, by omega⟩ : Fin 32) (⟨31 - q.val, by omega⟩ : Fin 32) c) := by
  refine (shapeCast_apply _ h5 (ix3 p q c) (ix2 p (⟨q.val * 768 + c.val, by omega⟩ : Fin 24576)) (by
    rw [Shape.rowMajor_val_two, Shape.rowMajor_val_three]
    show p.val * 24576 + (q.val * 768 + c.val) = (p.val * 32 + q.val) * 768 + c.val
    omega)).trans ?_
  refine (matmul_rev_rows v42 _ hR p _).trans ?_
  refine (shapeCast_apply _ h4 (ix2 (⟨31 - p.val, by omega⟩ : Fin 32) (⟨q.val * 768 + c.val, by omega⟩ : Fin 24576))
    (ix3 (⟨31 - p.val, by omega⟩ : Fin 32) q c) (by
    rw [Shape.rowMajor_val_two, Shape.rowMajor_val_three]
    show ((31 - p.val) * 32 + q.val) * 768 + c.val = (31 - p.val) * 24576 + (q.val * 768 + c.val)
    omega)).trans ?_
  exact matmul_rev_mid _ _ (fun p' a b => (spread_rev v42 h1 h2 h3 p' a b).trans (hR a b)) _ q c

/-- The two grid axes exchanged. -/
theorem swap_apply (v : FVec Ideal S32x32x768 .f32) (h : S32x32x768.Transposes [1, 0, 2] S32x32x768) (p q : Fin 32) (c : Fin 768) :
    transpose S32x32x768 [1, 0, 2] v h (ix3 p q c) = v (ix3 q p c) :=
  transpose_apply _ v h _ _ fun d => match d with | ⟨0, _⟩ => rfl | ⟨1, _⟩ => rfl | ⟨2, _⟩ => rfl

/-- The stored value at position `l = 32·p + q`, channel `c`: the four gated scans of the image `v2`, the first gate already
    spread over the block (`v44`), the others `1 × 1` values. -/
theorem stored_apply (v2 : FVec Ideal S32x32x768 .f32) (v24 v32 v40 : FVec Ideal S1x1 .f32) (v42 : FVec Ideal S32x32 .bf16)
    (v44 : FVec Ideal S32x32x768 .f32)
    (hR : ∀ a b : Fin 32, v42 (ix2 a b) = if a.val + b.val = 31 then (1 : EReal) else 0)
    (l : Fin 1024) (p q : Fin 32) (hl : l.val = 32 * p.val + q.val) (c : Fin 768) :
    k0_pay1 (F := Ideal) v2 v24 v32 v40 v42 v44 (ix3 (0 : Fin 1) l c)
      = ((v44 (ix3 p q c) * v2 (ix3 p q c) + v24 (ix2 (0 : Fin 1) (0 : Fin 1)) * v2 (ix3 q p c))
          + v32 (ix2 (0 : Fin 1) (0 : Fin 1)) * v2 (ix3 (⟨31 - p.val, by omega⟩ : Fin 32) (⟨31 - q.val, by omega⟩ : Fin 32) c))
        + v40 (ix2 (0 : Fin 1) (0 : Fin 1)) * v2 (ix3 (⟨31 - q.val, by omega⟩ : Fin 32) (⟨31 - p.val, by omega⟩ : Fin 32) c) := by
  unfold k0_pay1
  refine (shapeCast_ab_1ab_apply _ shapeCasts_S1024x768_S1x1024x768 (0 : Fin 1) l c).trans ?_
  refine (shapeCast_apply _ shapeCasts_S32x32x768_S1024x768 (ix2 l c) (ix3 p q c) (by
    rw [Shape.rowMajor_val_two, Shape.rowMajor_val_three]
    show (p.val * 32 + q.val) * 768 + c.val = l.val * 768 + c.val
    rw [hl]; omega)).trans ?_
  refine congrArg₂ (· + ·) (congrArg₂ (· + ·) (congrArg₂ (· + ·) rfl ?_) ?_) ?_
  · exact congrArg₂ (· * ·) (spread_apply v24 _ _ p q c) (swap_apply v2 _ p q c)
  · exact congrArg₂ (· * ·) (spread_apply v32 _ _ p q c) (rev_both v2 v42 hR _ _ _ _ _ _ p q c)
  · refine congrArg₂ (· * ·) (spread_apply v40 _ _ p q c) ?_
    exact (swap_apply _ _ p q c).trans (rev_both v2 v42 hR _ _ _ _ _ _ q p c)

/-- The image block at grid entry `(p, q)` is position `n = 32·p + q` of the loaded block. -/
theorem image_at (v0 : Vec Ideal S1x1024x768 .f32) (p q : Fin 32) (c : Fin 768) (n : Fin 1024) (hn : n.val = 32 * p.val + q.val) :
    k0_pay3 (F := Ideal) v0 (ix3 p q c) = v0 (ix3 (0 : Fin 1) n c) :=
  (image_apply v0 p q c).trans (congrArg (fun k => v0 (ix3 (0 : Fin 1) k c)) (Fin.ext hn.symm))

/-- A 32 × 32 matrix is the REVERSAL permutation: one on the anti-diagonal, zero elsewhere. -/
def IsRev (r : Vec Ideal S32x32 .f32) : Prop :=
  ∀ a b : Fin 32, r (ix2 a b) = if a.val + b.val = 31 then (1 : EReal) else 0

/-- The value the body stores, from the image block `v0`, the weights `v7`, the bias `v8` and a reversal matrix `v41`. -/
theorem block_value (v0 : Vec Ideal S1x1024x768 .f32) (v7 : Vec Ideal S4x768 .f32) (v8 : Vec Ideal S4 .f32)
    (v41 : Vec Ideal S32x32 .f32) (hR : IsRev v41) :
    k0_pay1 (F := Ideal) (k0_pay3 v0) (k0_pay5 v0 v7 v8) (k0_pay6 v0 v7 v8) (k0_pay7 v0 v7 v8) (k0_pay8 v41) (k0_pay9 v0 v7 v8)
      = merged (B := 1) v0 v7 v8 := by
  funext j
  obtain ⟨b, l, c, rfl⟩ : ∃ (b : Fin 1) (l : Fin 1024) (c : Fin 768), j = ix3 b l c := ⟨j 0, j 1, j 2, eq_ix3 j⟩
  obtain rfl : b = 0 := Fin.ext (by omega)
  have hp : l.val / 32 < 32 := by have := l.isLt; omega
  have hq : l.val % 32 < 32 := by omega
  have hl : l.val = 32 * (⟨l.val / 32, hp⟩ : Fin 32).val + (⟨l.val % 32, hq⟩ : Fin 32).val := by
    show l.val = 32 * (l.val / 32) + l.val % 32; omega
  rw [merged_ix3, stored_apply (k0_pay3 v0) _ _ _ (k0_pay8 v41) _ (fun a b => hR a b) l ⟨l.val / 32, hp⟩ ⟨l.val % 32, hq⟩ hl c]
  unfold mergedAt
  rw [gate0_apply, gate1_apply, gate2_apply, gate3_apply,
    image_at v0 _ _ c l hl,
    image_at v0 _ _ c (swapPos l) (by rw [swapPos_val]; show _ = 32 * (l.val % 32) + l.val / 32; omega),
    image_at v0 _ _ c (revPos l) (by rw [revPos_val]; show _ = 32 * (31 - l.val / 32) + (31 - l.val % 32); omega),
    image_at v0 _ _ c (revSwapPos l) (by rw [revSwapPos_val]; show _ = 32 * (31 - l.val % 32) + (31 - l.val / 32); omega)]

end Cert.ScanMerge.Kernel

end
-- ==== Proof.KernelRun.lean ====
/-
  After the kernel's run the result array is `merged` of the three argument arrays.

  The grid has 32 points, one per image. Point `t` loads image `t` of `x` (a block [1, 1024, 768] at block index
  (t, 0, 0)), the whole of `W`, the whole of the bias and the whole of a 32 × 32 literal, and stores one whole block
  [1, 1024, 768] of the result at block index (t, 0, 0). Three facts carry the array claim:

  * the literal is the REVERSAL permutation (one where row + column = 31, zero elsewhere): its 1024 words are decoded
    once, and the two words that occur denote 1 and 0;
  * what point `t` stores is `merged` of ONE image (batch extent 1) of the loaded blocks, and the gated mix at an image
    reads that image's entries only, so the stored block is block `t` of `merged` of the whole arrays (batch extent 32);
  * the 32 blocks tile the array: the index (b, l, c) lies in point `b`'s block.
-/
import proofs.«107193_j36206574305366_1_alg».proof.Proof.Gen.KernelIdeal.Value
import proofs.«107193_j36206574305366_1_alg».proof.Proof.BlockValue
import proofs.«107193_j36206574305366_1_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.ScanMerge.Kernel

open Cert.KernelIdeal Cert.KernelIdeal.Gen Idealize.ShloMosaic Idealize.ShloMosaic.TcCoe Idealize.SL.Sem
open Idealize.ShloMosaic.ValueIdx Cert.ScanMerge
open Idealize.ShloMosaic.Pipeline (Dat)

variable (m : (ℓ : Loc nD τ sig) → Buf (Elt Ideal) ℓ) (ρ : Dev nD → PrngReg)

/-! ## The literal is the reversal permutation -/

/-- The word `0x3F800000`: sign 0, exponent 127, significand 0, that is `2^23 · 2^(127 - 127 - 23) = 1`. -/
theorem one_f32 : Ideal.ofBits .f32 0x3F800000#32 = 1 := by
  simp [Ideal.ofBits, Ideal.ieee]
  rw [← EReal.coe_mul, ← EReal.coe_one, EReal.coe_eq_coe_iff]
  norm_num

/-- The literal's 1024 words in row-major order: the word of 1.0 at position `32·a + b` when `a + b = 31`, the zero
    word elsewhere (all 1024 positions evaluated). -/
theorem lit0_eq : ∀ i : Fin 1024, lit0 i = if i.val / 32 + i.val % 32 = 31 then 0x3F800000#32 else 0x00000000#32 := by
  decide +kernel

/-- When the grid is entered the literal's array holds, at each index, the value its row-major word denotes. -/
theorem cst_eq (c : Dev nD) :
    (V m c main_cst : S32x32.Idx → EReal) = fun i => Ideal.ofBits .f32 (lit0 (S32x32.rowMajor i)) := by
  dsimp only [Gen.V, Gen.hostOps0]; after_results; rfl

/-- So that array is the reversal permutation: index (a, b) sits at row-major position `32·a + b`. -/
theorem cst_isRev (c : Dev nD) : IsRev (V m c main_cst) := by
  intro a b
  have hv : (S32x32.rowMajor (ix2 a b)).val = a.val * 32 + b.val := Shape.rowMajor_val_two (ix2 a b)
  have e := congrFun (cst_eq m c) (ix2 a b)
  have hl := lit0_eq (S32x32.rowMajor (ix2 a b))
  refine (e.trans (congrArg (Ideal.ofBits .f32) hl)).trans ?_
  rw [hv]
  have h1 : (a.val * 32 + b.val) / 32 = a.val := by have := b.isLt; omega
  have h2 : (a.val * 32 + b.val) % 32 = b.val := by have := b.isLt; omega
  rw [h1, h2]
  by_cases h : a.val + b.val = 31
  · simp only [if_pos h]; exact one_f32
  · simp only [if_neg h]; exact Ideal.ofBits_zero_f32

/-! ## What one point stores, from the blocks it loaded -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Every load and the one store go through the whole block at offset zero, so the stored block is the body's value of
    the loaded blocks: `merged` of one image, when the fourth block is the reversal permutation. -/
theorem out_eq (x0 : Vec Ideal S1x1024x768 .f32) (x1 : Vec Ideal S4x768 .f32) (x2 : Vec Ideal S4 .f32)
    (x3 : Vec Ideal S32x32 .f32) (hR : IsRev x3) :
    out0_4 (F := Ideal) x0 x1 x2 x3 = merged (B := 1) x0 x1 x2 := by
  unfold Gen.out0_4
  rw [View.canon_unit_zero hz3]
  simp only [View.ld_unit_zero (S := S1x1024x768) hz3, View.ld_unit_zero (S := S4x768) hz2,
    View.ld_unit_zero (S := S4) hz1, View.ld_unit_zero (S := S32x32) hz2]
  exact block_value x0 x1 x2 x3 hR

/-- `merged` of one image `x0` at (0, l, c) is `merged` of the whole array `X` at (b, l, c) when `x0` is image `b` of
    `X`: the gates and the four scans at image `b` read image `b` only. -/
theorem merged_block (X : Vec Ideal S32x1024x768 .f32) (W : Vec Ideal S4x768 .f32) (bias : Vec Ideal S4 .f32)
    (x0 : Vec Ideal S1x1024x768 .f32) (b : Fin 32)
    (hx : ∀ (n : Fin 1024) (c' : Fin 768), x0 (ix3 0 n c') = X (ix3 b n c'))
    (j : S1x1024x768.Idx) (i : S32x1024x768.Idx) (h0 : (i 0).val = b.val) (h1 : (i 1).val = (j 1).val)
    (h2 : (i 2).val = (j 2).val) :
    merged (B := 1) x0 W bias j = merged (B := 32) X W bias i := by
  obtain ⟨p, q, r, rfl⟩ : ∃ (p : Fin 1) (q : Fin 1024) (r : Fin 768), j = ix3 p q r := ⟨j 0, j 1, j 2, eq_ix3 j⟩
  obtain ⟨p', q', r', rfl⟩ : ∃ (p' : Fin 32) (q' : Fin 1024) (r' : Fin 768), i = ix3 p' q' r' := ⟨i 0, i 1, i 2, eq_ix3 i⟩
  rw [merged_ix3, merged_ix3]
  obtain rfl : p = 0 := Subsingleton.elim _ _
  obtain rfl : p' = b := Fin.ext h0
  obtain rfl : q' = q := Fin.ext h1
  obtain rfl : r' = r := Fin.ext h2
  exact mergedAt_congr X x0 W bias _ 0 hx _ _

/-! ## The blocks a point loads -/

/-- The index maps over the 32 points: the image window and the result window sit at block index (t, 0, 0), the other
    three windows at block index zero on every axis. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem tN (t : Fin cfg0.N) : t.val < 32 := t.isLt.trans_eq N_0

/-- The image block at point `t`, at (0, l, c), is `x` at (t, l, c): a block's coordinate in the array is the block index
    times the block's extent plus the coordinate inside the block. -/
theorem iblk0_at (c : Dev nD) (t : Fin cfg0.N) (y : S1x1024x768.Idx) (i : S32x1024x768.Idx)
    (h0 : (i 0).val = t.val) (h1 : (i 1).val = (y 1).val) (h2 : (i 2).val = (y 2).val) :
    (iblk m c 0 t : Vec Ideal S1x1024x768 .f32) y = (V m c main_arg0 : Vec Ideal S32x1024x768 .f32) i := by
  obtain ⟨e0, e1, e2, -⟩ := idx_facts t
  show V m c main_arg0 (((cfg0.win 0).blk t).view.emb y) = V m c main_arg0 i
  have h : ((cfg0.win 0).blk t).view.emb y = i := by
    funext a; apply Fin.ext
    match a with
    | ⟨0, _⟩ => show win0_0.index t (0 : Fin 3) * 1 + 1 * (y 0).val = (i 0).val; have hy : (y 0).val < 1 := (y 0).isLt; omega
    | ⟨1, _⟩ => show win0_0.index t (1 : Fin 3) * 1024 + 1 * (y 1).val = (i 1).val; omega
    | ⟨2, _⟩ => show win0_0.index t (2 : Fin 3) * 768 + 1 * (y 2).val = (i 2).val; omega
  rw [h]

/-- The weights' block at every point is the whole of `W`. -/
theorem iblk1_eq (c : Dev nD) (t : Fin cfg0.N) :
    (iblk m c 1 t : Vec Ideal S4x768 .f32) = (V m c main_arg1 : Vec Ideal S4x768 .f32) := by
  obtain ⟨-, -, -, e0, e1, -⟩ := idx_facts t
  funext y
  show V m c main_arg1 (((cfg0.win 1).blk t).view.emb y) = V m c main_arg1 y
  have h : ((cfg0.win 1).blk t).view.emb y = y := by
    funext a; apply Fin.ext
    match a with
    | ⟨0, _⟩ => show win0_1.index t (0 : Fin 2) * 4 + 1 * (y 0).val = (y 0).val; omega
    | ⟨1, _⟩ => show win0_1.index t (1 : Fin 2) * 768 + 1 * (y 1).val = (y 1).val; omega
  rw [h]

/-- The bias's block at every point is the whole bias. -/
theorem iblk2_eq (c : Dev nD) (t : Fin cfg0.N) :
    (iblk m c 2 t : Vec Ideal S4 .f32) = (V m c main_arg2 : Vec Ideal S4 .f32) := by
  obtain ⟨-, -, -, -, -, e0, -⟩ := idx_facts t
  funext y
  show V m c main_arg2 (((cfg0.win 2).blk t).view.emb y) = V m c main_arg2 y
  have h : ((cfg0.win 2).blk t).view.emb y = y := by
    funext a; apply Fin.ext
    match a with
    | ⟨0, _⟩ => show win0_2.index t (0 : Fin 1) * 4 + 1 * (y 0).val = (y 0).val; omega
  rw [h]

/-- The literal's block at every point is the whole literal. -/
theorem iblk3_eq (c : Dev nD) (t : Fin cfg0.N) :
    (iblk m c 3 t : Vec Ideal S32x32 .f32) = (V m c main_cst : Vec Ideal S32x32 .f32) := by
  obtain ⟨-, -, -, -, -, -, e0, e1, -⟩ := idx_facts t
  funext y
  show V m c main_cst (((cfg0.win 3).blk t).view.emb y) = V m c main_cst y
  have h : ((cfg0.win 3).blk t).view.emb y = y := by
    funext a; apply Fin.ext
    match a with
    | ⟨0, _⟩ => show win0_3.index t (0 : Fin 2) * 32 + 1 * (y 0).val = (y 0).val; omega
    | ⟨1, _⟩ => show win0_3.index t (1 : Fin 2) * 32 + 1 * (y 1).val = (y 1).val; omega
  rw [h]

/-! ## Each point writes its block of `merged`; the blocks cover the array -/

/-- What point `t` writes back is block `t` of `merged` of the whole arrays: the stored block is `merged` of image `t`
    alone, and the result block's index (0, l, c) sits at (t, l, c) in the array. -/
theorem flushed_eq (c : Dev nD) (t : Fin cfg0.N) :
    (dats m 0 c).flushed 4 t = ((cfg0.win 4).blk t).view.read (Elt Ideal)
      (merged (B := 32) (V m c main_arg0) (V m c main_arg1) (V m c main_arg2)) := by
  have hR : IsRev (iblk m c 3 t) := by rw [iblk3_eq]; exact cst_isRev m c
  rw [Value.flushed4, out_eq _ _ _ _ hR, iblk1_eq, iblk2_eq]
  obtain ⟨-, -, -, -, -, -, -, -, e0, e1, e2⟩ := idx_facts t
  funext j
  show merged (B := 1) (iblk m c 0 t) (V m c main_arg1) (V m c main_arg2) j
    = merged (B := 32) (V m c main_arg0) (V m c main_arg1) (V m c main_arg2) (((cfg0.win 4).blk t).view.emb j)
  refine merged_block _ _ _ _ ⟨t.val, tN t⟩
    (fun n c' => iblk0_at m c t (ix3 0 n c') (ix3 ⟨t.val, tN t⟩ n c') rfl rfl rfl) j _ ?_ ?_ ?_
  · show win0_4.index t (0 : Fin 3) * 1 + 1 * (j 0).val = t.val; have hy : (j 0).val < 1 := (j 0).isLt; omega
  · show win0_4.index t (1 : Fin 3) * 1024 + 1 * (j 1).val = (j 1).val; omega
  · show win0_4.index t (2 : Fin 3) * 768 + 1 * (j 2).val = (j 2).val; omega

/-- An index of the array is in point `t`'s block iff each coordinate is in the block's range on its axis. -/
theorem mem_blk (t : Fin cfg0.N) (i : S32x1024x768.Idx) :
    i ∈ ((cfg0.win 4).blk t).view.set ↔ ∀ a : Fin 3, win0_4.index t a * S1x1024x768.size a ≤ (i a).val
      ∧ (i a).val < win0_4.index t a * S1x1024x768.size a + S1x1024x768.size a := by
  show i ∈ ((View.whole main_v0).slice (win0_4.rect t)).set ↔ _
  rw [View.set_slice_whole, Rect.mem_set_unit]
  exact Iff.rfl

/-- Every index (b, l, c) of the array lies in the block of point `b`. -/
theorem cover (i : S32x1024x768.Idx) :
    ∃ t : Fin cfg0.N, (cfg0.win 4).flush t = true ∧ i ∈ ((cfg0.win 4).blk t).view.set := by
  have hi0 : (i 0).val < 32 := (i 0).isLt
  have hi1 : (i 1).val < 1024 := (i 1).isLt
  have hi2 : (i 2).val < 768 := (i 2).isLt
  have hN : cfg0.N = 32 := N_0
  obtain ⟨t, ht⟩ : ∃ t : Fin cfg0.N, t.val = (i 0).val := ⟨⟨(i 0).val, hi0.trans_eq hN.symm⟩, rfl⟩
  obtain ⟨-, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 768 ≤ (i 2).val ∧ (i 2).val < win0_4.index t (2 : Fin 3) * 768 + 768; omega

/-- So the result array ends holding `merged` of the arguments as launched: nothing before the grid writes them. -/
theorem final (c : Dev nD) : (dats m 0 c).arrAt 4 cfg0.N
    = merged (B := 32) (m ((c : Thread nD τ).loc main_arg0)) (m ((c : Thread nD τ).loc main_arg1))
        (m ((c : Thread nD τ).loc main_arg2)) := by
  have h := (dats m 0 c).arrAt_eq_of_cover 4
    (merged (B := 32) (V m c main_arg0) (V m c main_arg1) (V m c main_arg2)) (fun t _ => flushed_eq m c t) cover
  rw [V_main_arg0, V_main_arg1, V_main_arg2] at h
  exact h

/-! ## The run -/

/-- Every run of the kernel ends with the result array at `merged` of the arguments and the arguments unchanged. -/
theorem run : θ_run (defs (F := Ideal)) (onTc (τ := τ) (main (F := Ideal))) ⟨m, fun _ => 0, ρ⟩ fun r => ∀ c : Dev nD,
      r.2.mem ((c : Thread nD τ).loc main_v0) = merged (B := 32) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.ScanMerge.Kernel

end
-- ==== Proof.RefMerged.lean ====
/-
  The reference program computes `merged`.

  The reference transposes each image to channel-major order and views its 1024 positions as a 32 × 32 grid; entry
  `(b, c, p, q)` of that grid is the input at image `b`, position `32·p + q`, channel `c` (`grid_apply`). From the
  grid it takes the four scans — the grid flattened (`rowScan_apply`), the grid with its two axes exchanged and then
  flattened (`colScan_apply`), and each of the two with the flattened axis reversed (`revRowScan_apply`,
  `revColScan_apply`) — and the channel sums: the sum over the grid's two axes at `(b, c)` runs over the grid indices
  of image `b` and channel `c`, which correspond one to one to the positions `n = 32·p + q`, so it is the sum over the
  1024 positions (`channelSum_apply`; the initial value is the zero word). Dividing by the literal `1024.0` gives the
  channel means (`channelMean_apply`), their inner products with the rows of `W` plus the bias give the four gates
  (`gate_apply`), each spread over its image (`gate0_apply` … `gate3_apply`), and the result, transposed back to
  position-major order, is the gated mix in the association `((g₀·s₀ + g₁·s₁) + g₂·s₂) + g₃·s₃` (`ref_merged`).
-/
import proofs.«107193_j36206574305366_1_alg».proof.Proof.Gen.ReferenceIdeal.Read
import proofs.«107193_j36206574305366_1_alg».proof.Proof.Spec
noncomputable section
namespace Cert.ScanMerge.Ref
open Cert.ReferenceIdeal Cert.ReferenceIdeal.Gen Cert.ReferenceIdeal.Read Idealize.ShloMosaic Idealize.ShloMosaic.ValueIdx Cert.ScanMerge

/-- Row `p`, column `q` of the 32 × 32 grid as a position: `32·p + q`. -/
def gridPos (p q : Fin 32) : Fin 1024 := ⟨32 * p.val + q.val, by have := p.isLt; have := q.isLt; omega⟩

theorem gridPos_val (p q : Fin 32) : (gridPos p q).val = 32 * p.val + q.val := rfl

/-- The reference's grid view of the images, channel-major: its entry `(b, c, p, q)` is the input at image `b`,
    position `32·p + q`, channel `c`. -/
theorem grid_apply (x0 : (⟨S32x1024x768, .f32⟩ : BufTy).Contents (Elt Ideal)) (b : Fin 32) (c : Fin 768) (p q : Fin 32) :
    val_main_v1 (F := Ideal) x0 (ix4 b c p q) = x0 (ix3 b (gridPos p q) c) := by
  rw [val_main_v1_apply, val_main_v0_apply]
  refine congrArg x0 (funext fun a => Fin.ext ?_)
  have := b.isLt; have := c.isLt; have := p.isLt; have := q.isLt
  match a with
  | ⟨0, _⟩ => show (((b.val * 768 + c.val) * 32 + p.val) * 32 + q.val) / 786432 = b.val; omega
  | ⟨1, _⟩ => show (((b.val * 768 + c.val) * 32 + p.val) * 32 + q.val) % 1024 = 32 * p.val + q.val; omega
  | ⟨2, _⟩ => show (((b.val * 768 + c.val) * 32 + p.val) * 32 + q.val) / 1024 % 768 = c.val; omega

/-- Position `l` of the flattened grid is row `l / 32`, column `l % 32`. -/
theorem rowScan_idx (b : Fin 32) (c : Fin 768) (l : Fin 1024) :
    idx_main_v11 (ix3 b c l) = ix4 b c ⟨l.val / 32, by have := l.isLt; omega⟩ ⟨l.val % 32, by omega⟩ :=
  funext fun a => Fin.ext (by
    have := b.isLt; have := c.isLt; have := l.isLt
    match a with
    | ⟨0, _⟩ => show ((b.val * 768 + c.val) * 1024 + l.val) / 786432 = b.val; omega
    | ⟨1, _⟩ => show ((b.val * 768 + c.val) * 1024 + l.val) / 1024 % 768 = c.val; omega
    | ⟨2, _⟩ => show ((b.val * 768 + c.val) * 1024 + l.val) / 32 % 32 = l.val / 32; omega
    | ⟨3, _⟩ => show ((b.val * 768 + c.val) * 1024 + l.val) % 32 = l.val % 32; omega)

/-- The same for the flattening of the exchanged grid. -/
theorem colScan_idx (b : Fin 32) (c : Fin 768) (l : Fin 1024) :
    idx_main_v13 (ix3 b c l) = ix4 b c ⟨l.val / 32, by have := l.isLt; omega⟩ ⟨l.val % 32, by omega⟩ :=
  funext fun a => Fin.ext (by
    have := b.isLt; have := c.isLt; have := l.isLt
    match a with
    | ⟨0, _⟩ => show ((b.val * 768 + c.val) * 1024 + l.val) / 786432 = b.val; omega
    | ⟨1, _⟩ => show ((b.val * 768 + c.val) * 1024 + l.val) / 1024 % 768 = c.val; omega
    | ⟨2, _⟩ => show ((b.val * 768 + c.val) * 1024 + l.val) / 32 % 32 = l.val / 32; omega
    | ⟨3, _⟩ => show ((b.val * 768 + c.val) * 1024 + l.val) % 32 = l.val % 32; omega)

/-- Exchanging the grid's two axes reads row `q`, column `p` at `(p, q)`. -/
theorem exchange_idx (b : Fin 32) (c : Fin 768) (p q : Fin 32) : idx_main_v12 (ix4 b c p q) = ix4 b c q p :=
  funext fun a => match a with
    | ⟨0, _⟩ => rfl
    | ⟨1, _⟩ => rfl
    | ⟨2, _⟩ => rfl
    | ⟨3, _⟩ => rfl

/-- The row-major scan, channel-major: entry `(b, c, l)` is the input at image `b`, position `l`, channel `c`. -/
theorem rowScan_apply (x0 : (⟨S32x1024x768, .f32⟩ : BufTy).Contents (Elt Ideal)) (b : Fin 32) (c : Fin 768) (l : Fin 1024) :
    val_main_v11 (F := Ideal) x0 (ix3 b c l) = x0 (ix3 b l c) := by
  rw [val_main_v11_apply, rowScan_idx, grid_apply]
  exact congrArg (fun n => x0 (ix3 b n c)) (Fin.ext (by show 32 * (l.val / 32) + l.val % 32 = l.val; omega))

/-- The column-major scan: entry `(b, c, l)` is the input at the position with `l`'s row and column exchanged. -/
theorem colScan_apply (x0 : (⟨S32x1024x768, .f32⟩ : BufTy).Contents (Elt Ideal)) (b : Fin 32) (c : Fin 768) (l : Fin 1024) :
    val_main_v13 (F := Ideal) x0 (ix3 b c l) = x0 (ix3 b (swapPos l) c) := by
  rw [val_main_v13_apply, colScan_idx, val_main_v12_apply, exchange_idx, grid_apply]
  exact congrArg (fun n => x0 (ix3 b n c)) (Fin.ext (by show 32 * (l.val % 32) + l.val / 32 = l.val % 32 * 32 + l.val / 32; omega))

/-- Reversing the last axis reads position `1023 - l` at `l`. -/
theorem reverse_last_apply {α : Type} (y : S32x768x1024.Idx → α) (b : Fin 32) (c : Fin 768) (l : Fin 1024) :
    Host.reverse [2] y (ix3 b c l) = y (ix3 b c l.rev) := by
  unfold Host.reverse
  refine congrArg y (funext fun a => ?_)
  match a with
  | ⟨0, _⟩ => rfl
  | ⟨1, _⟩ => rfl
  | ⟨2, _⟩ => rfl

theorem rev_eq_revPos (l : Fin 1024) : l.rev = revPos l :=
  Fin.ext (by rw [Fin.val_rev, revPos_val]; have := l.isLt; omega)

/-- The row-major scan backwards. -/
theorem revRowScan_apply (x0 : (⟨S32x1024x768, .f32⟩ : BufTy).Contents (Elt Ideal)) (b : Fin 32) (c : Fin 768) (l : Fin 1024) :
    val_main_v14 (F := Ideal) x0 (ix3 b c l) = x0 (ix3 b (revPos l) c) := by
  unfold val_main_v14
  rw [reverse_last_apply, rowScan_apply, rev_eq_revPos]

/-- The column-major scan backwards. -/
theorem revColScan_apply (x0 : (⟨S32x1024x768, .f32⟩ : BufTy).Contents (Elt Ideal)) (b : Fin 32) (c : Fin 768) (l : Fin 1024) :
    val_main_v15 (F := Ideal) x0 (ix3 b c l) = x0 (ix3 b (revSwapPos l) c) := by
  unfold val_main_v15
  rw [reverse_last_apply, colScan_apply, rev_eq_revPos]
  exact congrArg (fun n => x0 (ix3 b n c)) (Fin.ext (by
    rw [swapPos_val, revSwapPos_val, revPos_val]; have := l.isLt; omega))

/-- The grid index of image `b`, channel `c`, position `n`: row `n / 32`, column `n % 32`. -/
def gridOfPos (b : Fin 32) (c : Fin 768) (n : Fin 1024) : S32x768x32x32.Idx :=
  ix4 b c ⟨n.val / 32, by have := n.isLt; omega⟩ ⟨n.val % 32, by omega⟩

/-- The position of a grid index: `32·row + column`. -/
def posOfGrid (i : S32x768x32x32.Idx) : Fin 1024 :=
  ⟨32 * (i 2).val + (i 3).val, by
    have h2 : (i 2).val < 32 := (i 2).isLt
    have h3 : (i 3).val < 32 := (i 3).isLt
    omega⟩

theorem posOfGrid_gridOfPos (b : Fin 32) (c : Fin 768) (n : Fin 1024) : posOfGrid (gridOfPos b c n) = n :=
  Fin.ext (by show 32 * (n.val / 32) + n.val % 32 = n.val; omega)

/-- The grid view at the grid index of position `n` is the input at position `n`. -/
theorem grid_gridOfPos (x0 : (⟨S32x1024x768, .f32⟩ : BufTy).Contents (Elt Ideal)) (b : Fin 32) (c : Fin 768) (n : Fin 1024) :
    val_main_v1 (F := Ideal) x0 (gridOfPos b c n) = x0 (ix3 b n c) := by
  unfold gridOfPos
  rw [grid_apply]
  exact congrArg (fun n => x0 (ix3 b n c)) (Fin.ext (by show 32 * (n.val / 32) + n.val % 32 = n.val; omega))

/-- Summing out the grid's two axes keeps the image coordinate … -/
theorem drop_image (i : S32x768x32x32.Idx) :
    (reducesTo_S32x768x32x32_S32x768_d2_3.drop i 0).val = (i 0).val :=
  Shape.ReducesTo.drop_apply_val_of_eq reducesTo_S32x768x32x32_S32x768_d2_3 i 0 0

/-- … and the channel coordinate. -/
theorem drop_channel (i : S32x768x32x32.Idx) :
    (reducesTo_S32x768x32x32_S32x768_d2_3.drop i 1).val = (i 1).val :=
  Shape.ReducesTo.drop_apply_val_of_eq reducesTo_S32x768x32x32_S32x768_d2_3 i 1 1

/-- The grid indices that reduce to `(b, c)` are those of image `b` and channel `c`. -/
theorem drop_eq_iff (b : Fin 32) (c : Fin 768) (i : S32x768x32x32.Idx) :
    reducesTo_S32x768x32x32_S32x768_d2_3.drop i = ix2 b c ↔ (i 0).val = b.val ∧ (i 1).val = c.val := by
  constructor
  · intro e
    exact ⟨(drop_image i).symm.trans (congrArg (fun j : S32x768.Idx => (j 0).val) e),
      (drop_channel i).symm.trans (congrArg (fun j : S32x768.Idx => (j 1).val) e)⟩
  · rintro ⟨e0, e1⟩
    funext a
    match a with
    | ⟨0, _⟩ => exact Fin.ext ((drop_image i).trans e0)
    | ⟨1, _⟩ => exact Fin.ext ((drop_channel i).trans e1)

/-- The reference's sum over the grid at `(b, c)` is the sum of channel `c` of image `b` over the 1024 positions. -/
theorem channelSum_apply (x0 : (⟨S32x1024x768, .f32⟩ : BufTy).Contents (Elt Ideal)) (b : Fin 32) (c : Fin 768) :
    val_main_v2 (F := Ideal) x0 (ix2 b c) = ∑ n : Fin 1024, x0 (ix3 b n c) := by
  have h0 : val_main_v2 (F := Ideal) x0 (ix2 b c)
      = Ideal.hostReduceAdd reducesTo_S32x768x32x32_S32x768_d2_3 (val_main_v1 (F := Ideal) x0)
          (Ideal.ofBits .f32 0x00000000#32) (ix2 b c) := rfl
  rw [h0]
  unfold Ideal.hostReduceAdd
  rw [Ideal.ofBits_zero_f32, zero_add]
  symm
  refine Finset.sum_nbij' (gridOfPos b c) posOfGrid ?_ ?_ ?_ ?_ ?_
  · intro n _
    exact Finset.mem_filter.mpr ⟨Finset.mem_univ _, (drop_eq_iff b c _).mpr ⟨rfl, rfl⟩⟩
  · intro a _; exact Finset.mem_univ _
  · intro n _; exact posOfGrid_gridOfPos b c n
  · intro a ha
    obtain ⟨e0, e1⟩ := (drop_eq_iff b c a).mp (Finset.mem_filter.mp ha).2
    have h2 : (a 2).val < 32 := (a 2).isLt
    have h3 : (a 3).val < 32 := (a 3).isLt
    funext d
    refine Fin.ext ?_
    match d with
    | ⟨0, _⟩ => exact e0.symm
    | ⟨1, _⟩ => exact e1.symm
    | ⟨2, _⟩ => show (32 * (a 2).val + (a 3).val) / 32 = (a 2).val; omega
    | ⟨3, _⟩ => show (32 * (a 2).val + (a 3).val) % 32 = (a 3).val; omega
  · intro n _; exact (grid_gridOfPos x0 b c n).symm

/-- The reference's channel mean at `(b, c)`. -/
theorem channelMean_apply (x0 : (⟨S32x1024x768, .f32⟩ : BufTy).Contents (Elt Ideal)) (b : Fin 32) (c : Fin 768) :
    val_main_v4 (F := Ideal) x0 (ix2 b c) = pooled x0 b c := by
  rw [val_main_v4_apply, val_main_v3_apply, val_main_cst_0_apply, channelSum_apply, Ideal.hostDivf_def, Ideal.ofBits_def]
  rfl

/-- The reference's gate `i` of image `b`: the channel means against row `i` of the weights, plus the bias. -/
theorem gate_apply (x0 : (⟨S32x1024x768, .f32⟩ : BufTy).Contents (Elt Ideal)) (x1 : (⟨S4x768, .f32⟩ : BufTy).Contents (Elt Ideal))
    (x2 : (⟨S4, .f32⟩ : BufTy).Contents (Elt Ideal)) (b : Fin 32) (i : Fin 4) :
    val_main_v9 (F := Ideal) x0 x1 x2 (ix2 b i) = gate x0 x1 x2 b i := by
  have hs : ∀ k : Fin 768, val_main_v4 (F := Ideal) x0 (lidx_main_v6 (ix2 b i) k) * val_main_v5 (F := Ideal) x1 (ridx_main_v6 (ix2 b i) k)
      = pooled x0 b k * x1 (ix2 i k) := fun k => by
    have el : lidx_main_v6 (ix2 b i) k = ix2 b k := funext fun a => match a with
      | ⟨0, _⟩ => rfl
      | ⟨1, _⟩ => rfl
    have er : idx_main_v5 (ridx_main_v6 (ix2 b i) k) = ix2 i k := funext fun a => match a with
      | ⟨0, _⟩ => rfl
      | ⟨1, _⟩ => rfl
    rw [el, channelMean_apply, val_main_v5_apply, er]
  have hb : idx_main_v7 (idx_main_v8 (ix2 b i)) = ix1 i := funext fun a => match a with
    | ⟨0, _⟩ => rfl
  rw [val_main_v9_apply, val_main_v6_apply, val_main_v8_apply, val_main_v7_apply, hb, Ideal.addf_def,
    Finset.sum_congr rfl fun k _ => hs k]
  rfl

/-- Gate 0 of image `b`, spread over that image's channels and positions. -/
theorem gate0_apply (x0 : (⟨S32x1024x768, .f32⟩ : BufTy).Contents (Elt Ideal)) (x1 : (⟨S4x768, .f32⟩ : BufTy).Contents (Elt Ideal))
    (x2 : (⟨S4, .f32⟩ : BufTy).Contents (Elt Ideal)) (b : Fin 32) (c : Fin 768) (l : Fin 1024) :
    val_main_v18 (F := Ideal) x0 x1 x2 (ix3 b c l) = gate x0 x1 x2 b 0 := by
  have e : idx_main_v10 (idx_main_v16 (idx_main_v17 (idx_main_v18 (ix3 b c l)))) = ix2 b 0 :=
    funext fun a => Fin.ext (by
      match a with
      | ⟨0, _⟩ => show ((b.val * 1 + 0) * 1 + 0) / 1 = b.val; omega
      | ⟨1, _⟩ => rfl)
  rw [val_main_v18_apply, val_main_v17_apply, val_main_v16_apply, val_main_v10_apply, e, gate_apply]

/-- Gate 1 likewise. -/
theorem gate1_apply (x0 : (⟨S32x1024x768, .f32⟩ : BufTy).Contents (Elt Ideal)) (x1 : (⟨S4x768, .f32⟩ : BufTy).Contents (Elt Ideal))
    (x2 : (⟨S4, .f32⟩ : BufTy).Contents (Elt Ideal)) (b : Fin 32) (c : Fin 768) (l : Fin 1024) :
    val_main_v22 (F := Ideal) x0 x1 x2 (ix3 b c l) = gate x0 x1 x2 b 1 := by
  have e : idx_main_v10 (idx_main_v20 (idx_main_v21 (idx_main_v22 (ix3 b c l)))) = ix2 b 1 :=
    funext fun a => Fin.ext (by
      match a with
      | ⟨0, _⟩ => show ((b.val * 1 + 0) * 1 + 0) / 1 = b.val; omega
      | ⟨1, _⟩ => rfl)
  rw [val_main_v22_apply, val_main_v21_apply, val_main_v20_apply, val_main_v10_apply, e, gate_apply]

/-- Gate 2 likewise. -/
theorem gate2_apply (x0 : (⟨S32x1024x768, .f32⟩ : BufTy).Contents (Elt Ideal)) (x1 : (⟨S4x768, .f32⟩ : BufTy).Contents (Elt Ideal))
    (x2 : (⟨S4, .f32⟩ : BufTy).Contents (Elt Ideal)) (b : Fin 32) (c : Fin 768) (l : Fin 1024) :
    val_main_v27 (F := Ideal) x0 x1 x2 (ix3 b c l) = gate x0 x1 x2 b 2 := by
  have e : idx_main_v10 (idx_main_v25 (idx_main_v26 (idx_main_v27 (ix3 b c l)))) = ix2 b 2 :=
    funext fun a => Fin.ext (by
      match a with
      | ⟨0, _⟩ => show ((b.val * 1 + 0) * 1 + 0) / 1 = b.val; omega
      | ⟨1, _⟩ => rfl)
  rw [val_main_v27_apply, val_main_v26_apply, val_main_v25_apply, val_main_v10_apply, e, gate_apply]

/-- Gate 3 likewise. -/
theorem gate3_apply (x0 : (⟨S32x1024x768, .f32⟩ : BufTy).Contents (Elt Ideal)) (x1 : (⟨S4x768, .f32⟩ : BufTy).Contents (Elt Ideal))
    (x2 : (⟨S4, .f32⟩ : BufTy).Contents (Elt Ideal)) (b : Fin 32) (c : Fin 768) (l : Fin 1024) :
    val_main_v32 (F := Ideal) x0 x1 x2 (ix3 b c l) = gate x0 x1 x2 b 3 := by
  have e : idx_main_v10 (idx_main_v30 (idx_main_v31 (idx_main_v32 (ix3 b c l)))) = ix2 b 3 :=
    funext fun a => Fin.ext (by
      match a with
      | ⟨0, _⟩ => show ((b.val * 1 + 0) * 1 + 0) / 1 = b.val; omega
      | ⟨1, _⟩ => rfl)
  rw [val_main_v32_apply, val_main_v31_apply, val_main_v30_apply, val_main_v10_apply, e, gate_apply]

/-- The reference's result is the gated mix of the four scans, index by index. -/
theorem ref_merged (x0 : (⟨S32x1024x768, .f32⟩ : BufTy).Contents (Elt Ideal)) (x1 : (⟨S4x768, .f32⟩ : BufTy).Contents (Elt Ideal))
    (x2 : (⟨S4, .f32⟩ : BufTy).Contents (Elt Ideal)) :
    val_main_v35 (F := Ideal) x0 x1 x2 = merged (B := 32) x0 x1 x2 := by
  funext j
  obtain ⟨b, l, c, rfl⟩ : ∃ b l c, j = ix3 b l c := ⟨j 0, j 1, j 2, eq_ix3 j⟩
  have e : idx_main_v35 (ix3 b l c) = ix3 b c l := funext fun a => match a with
    | ⟨0, _⟩ => rfl
    | ⟨1, _⟩ => rfl
    | ⟨2, _⟩ => rfl
  rw [val_main_v35_apply, e, val_main_v34_apply, val_main_v29_apply, val_main_v24_apply, val_main_v19_apply,
    val_main_v23_apply, val_main_v28_apply, val_main_v33_apply, gate0_apply, gate1_apply, gate2_apply, gate3_apply,
    rowScan_apply, colScan_apply, revRowScan_apply, revColScan_apply, merged_ix3]
  rfl

end Cert.ScanMerge.Ref
end
-- ==== Proof.lean ====
/-
  The certificate's claims, assembled.

  Both programs compute, for each of the 32 images, the gated mix of four scans of the image (row-major, column-major, and
  each backwards), the four gates being the channel means against the weight rows plus the bias: `Cert.ScanMerge.merged`
  (Proof/Spec.lean). The kernel does it one image per grid point, exchanging the grid axes by a transpose and reversing them by
  two products with the reversal permutation matrix (Proof/BlockValue.lean), and its 32 blocks make up the whole result
  (Proof/KernelRun.lean); the reference does it by transposes, reshapes and reverses of the whole array
  (Proof/RefMerged.lean). The two results are therefore one function of arguments that agree. No law of the extended reals is
  used beyond commutativity and associativity of the sum and `0 · x = 0`, `1 · x = x`, so the inputs' finiteness is never opened.
  The three frames are the generated ones; the idealization rewrote nothing, so `preserves` is `True`.
-/
import proofs.«107193_j36206574305366_1_alg».proof.Defs
import proofs.«107193_j36206574305366_1_alg».proof.Proof.Gen.Kernel
import proofs.«107193_j36206574305366_1_alg».proof.Proof.Gen.Kernel.Skeleton
import proofs.«107193_j36206574305366_1_alg».proof.Proof.Gen.Kernel.Launch
import proofs.«107193_j36206574305366_1_alg».proof.Proof.Gen.Kernel.Points
import proofs.«107193_j36206574305366_1_alg».proof.Proof.Gen.Kernel.Frame
import proofs.«107193_j36206574305366_1_alg».proof.Proof.Gen.KernelIdeal
import proofs.«107193_j36206574305366_1_alg».proof.Proof.Gen.KernelIdeal.Skeleton
import proofs.«107193_j36206574305366_1_alg».proof.Proof.Gen.KernelIdeal.Launch
import proofs.«107193_j36206574305366_1_alg».proof.Proof.Gen.KernelIdeal.Points
import proofs.«107193_j36206574305366_1_alg».proof.Proof.Gen.KernelIdeal.Frame
import proofs.«107193_j36206574305366_1_alg».proof.Proof.Gen.ReferenceIdeal
import proofs.«107193_j36206574305366_1_alg».proof.Proof.Gen.Pre_finite_inputs
import proofs.«107193_j36206574305366_1_alg».proof.Proof.Gen.KernelIdeal.Value
import proofs.«107193_j36206574305366_1_alg».proof.Proof.Gen.ReferenceIdeal.Run
import proofs.«107193_j36206574305366_1_alg».proof.Proof.Gen.ReferenceIdeal.Read
import proofs.«107193_j36206574305366_1_alg».proof.Proof.Spec
import proofs.«107193_j36206574305366_1_alg».proof.Proof.BlockValue
import proofs.«107193_j36206574305366_1_alg».proof.Proof.KernelRun
import proofs.«107193_j36206574305366_1_alg».proof.Proof.RefMerged
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's are both `merged` of the arguments. -/
theorem algebraic : Cert.algebraic_KernelIdeal_ReferenceIdeal := by
  intro m ρ m' ρ' _ hagree
  refine ⟨_, Cert.ScanMerge.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ScanMerge.Ref.ref_merged, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
